-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x6890 : Shape := ⟨3, ![8, 3, 6890]⟩
abbrev S1723x6890 : Shape := ⟨2, ![1723, 6890]⟩
abbrev S_ : Shape := ⟨0, ![]⟩

class Facts : Prop where
  bcast_S_S8x3x6890 : S_.BroadcastsInDim S8x3x6890 (![] : Fin 0 → Fin S8x3x6890.rank)
  reducesTo_S8x3x6890_S_d0_1_2 : S8x3x6890.ReducesTo [0, 1, 2] S_
  h_S_ : 0 < S_.numel
  bcast_S_S1723x6890 : S_.BroadcastsInDim S1723x6890 (![] : Fin 0 → Fin S1723x6890.rank)
  reducesTo_S1723x6890_S_d0_1 : S1723x6890.ReducesTo [0, 1] S_

variable [Facts]

def fn {F : FTy → Type} [FloatOps F] (main_arg0 : FVec F S8x3x6890 .f32) (main_arg1 : FVec F S1723x6890 .f32) : IVec S_ 1 :=
  let main_v0 : FVec F S8x3x6890 .f32 := Host.absf main_arg0
  let main_cst : FVec F S_ .f32 := constant S_ .f32 0x7F800000#32
  let main_v1 : FVec F S8x3x6890 .f32 := broadcastInDim S8x3x6890 ![] bcast_S_S8x3x6890 main_cst
  let main_v2 : IVec S8x3x6890 1 := cmpf .olt main_v0 main_v1
  let main_c : IVec S_ 1 := constantI S_ 1 1#1
  let main_v3 : IVec S_ 1 := (fun x v => Host.reduce IntOp.andi x v reducesTo_S8x3x6890_S_d0_1_2 h_S_) main_v2 main_c
  let main_v4 : FVec F S1723x6890 .f32 := Host.absf main_arg1
  let main_cst_0 : FVec F S_ .f32 := constant S_ .f32 0x7F800000#32
  let main_v5 : FVec F S1723x6890 .f32 := broadcastInDim S1723x6890 ![] bcast_S_S1723x6890 main_cst_0
  let main_v6 : IVec S1723x6890 1 := cmpf .olt main_v4 main_v5
  let main_c_1 : IVec S_ 1 := constantI S_ 1 1#1
  let main_v7 : IVec S_ 1 := (fun x v => Host.reduce IntOp.andi x v reducesTo_S1723x6890_S_d0_1 h_S_) main_v6 main_c_1
  let main_v8 : IVec S_ 1 := andi main_v3 main_v7
  main_v8
-- ==== Kernel.lean ====
abbrev S8x3x6890 : Shape := ⟨3, ![8, 3, 6890]⟩
abbrev S1723x6890 : Shape := ⟨2, ![1723, 6890]⟩
abbrev S24x6890 : Shape := ⟨2, ![24, 6890]⟩
abbrev S24x1723 : Shape := ⟨2, ![24, 1723]⟩
abbrev S128x6890 : Shape := ⟨2, ![128, 6890]⟩
abbrev S24x128 : Shape := ⟨2, ![24, 128]⟩
abbrev S8x3x1723 : Shape := ⟨3, ![8, 3, 1723]⟩

abbrev nBuf : Space → Nat
  | .hbm => 5
  | .vmem => 5
  | .smem => 0
  | _ => 0

abbrev bufTy : (tb : Table) → Fin (tcTables nBuf tb) → BufTy
  | .hbm, ⟨0, _⟩ => ⟨S8x3x6890, .f32⟩
  | .hbm, ⟨1, _⟩ => ⟨S1723x6890, .f32⟩
  | .hbm, ⟨2, _⟩ => ⟨S24x6890, .f32⟩
  | .hbm, ⟨3, _⟩ => ⟨S24x1723, .f32⟩
  | .hbm, ⟨4, _⟩ => ⟨S8x3x1723, .f32⟩
  | .local _ .vmem, ⟨0, _⟩ => ⟨S24x6890, .f32⟩
  | .local _ .vmem, ⟨1, _⟩ => ⟨S128x6890, .f32⟩
  | .local _ .vmem, ⟨2, _⟩ => ⟨S128x6890, .f32⟩
  | .local _ .vmem, ⟨3, _⟩ => ⟨S24x128, .f32⟩
  | .local _ .vmem, ⟨4, _⟩ => ⟨S24x128, .f32⟩
  | _, _ => ⟨S8x3x6890, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S24x6890 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x6890 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S24x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x3x6890_S24x6890 : S8x3x6890.ShapeCasts S24x6890
  inb_S24x6890_S24x6890_0_0 : ∀ a, (![0, 0] : Fin 2 → Nat) a + S24x6890.size a ≤ S24x6890.size a
  h_S24x6890 : 0 < S24x6890.numel
  shapeCasts_S24x6890_S24x6890 : S24x6890.ShapeCasts S24x6890
  inb_S128x6890_S128x6890_0_0 : ∀ a, (![0, 0] : Fin 2 → Nat) a + S128x6890.size a ≤ S128x6890.size a
  h_S128x6890 : 0 < S128x6890.numel
  inb_S24x128_S24x128_0_0 : ∀ a, (![0, 0] : Fin 2 → Nat) a + S24x128.size a ≤ S24x128.size a
  h_S24x128 : 0 < S24x128.numel
  shapeCasts_S24x1723_S8x3x1723 : S24x1723.ShapeCasts S8x3x1723
  dot_S24x6890_S128x6890_S24x128_1_1_0_0_n_n_wf : DotDims.WF S24x6890 S128x6890 S24x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S24x6890.size a ≤ S24x6890.size a
  hwx0_0 : ∀ i : grid0.Coords, EltTy.bits .f32 = 32 ∨ (Rect.block (s := S24x6890) S24x6890.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S128x6890.size a < S1723x6890.size a
  hwx0_1 : ∀ i : grid0.Coords, EltTy.bits .f32 = 32 ∨ (Rect.unit (s := S1723x6890) (fun a => cc0_transform_1 i a * S128x6890.size a) (fun a => (Pipeline.Clip.of (cc0_transform_1 i a) (S128x6890.size a) (S1723x6890.size a)).extent (S128x6890.size a)) fun a => Pipeline.Clip.inb (Pipeline.Clip.ok_of (hstart0_1 i a))).WholeWords (EltTy.packing .f32)
  hwxs0_1 : ∀ i : grid0.Coords, EltTy.bits .f32 = 32 ∨ (Rect.unit (s := S128x6890) (fun _ => 0) (fun a => (Pipeline.Clip.of (cc0_transform_1 i a) (S128x6890.size a) (S1723x6890.size a)).extent (S128x6890.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S24x128.size a < S24x1723.size a
  hwx0_2 : ∀ i : grid0.Coords, EltTy.bits .f32 = 32 ∨ (Rect.unit (s := S24x1723) (fun a => cc0_transform_2 i a * S24x128.size a) (fun a => (Pipeline.Clip.of (cc0_transform_2 i a) (S24x128.size a) (S24x1723.size a)).extent (S24x128.size a)) fun a => Pipeline.Clip.inb (Pipeline.Clip.ok_of (hstart0_2 i a))).WholeWords (EltTy.packing .f32)
  hwxs0_2 : ∀ i : grid0.Coords, EltTy.bits .f32 = 32 ∨ (Rect.unit (s := S24x128) (fun _ => 0) (fun a => (Pipeline.Clip.of (cc0_transform_2 i a) (S24x128.size a) (S24x1723.size a)).extent (S24x128.size a)) fun a => (Nat.zero_add _).trans_le (Pipeline.Clip.extent_le (Pipeline.Clip.ok_of (hstart0_2 i a)))).WholeWords (EltTy.packing .f32)

variable [Facts₀]

def dot_S24x6890_S128x6890_S24x128_1_1_0_0_n_n : DotDims S24x6890 S128x6890 S24x128 where
  lhsContracting := [1]
  rhsContracting := [1]
  lhsNonContracting := [0]
  rhsNonContracting := [0]
  lhsBatch := []
  rhsBatch := []
  wf := dot_S24x6890_S128x6890_S24x128_1_1_0_0_n_n_wf

abbrev win0_0 : Pipeline.Window sig grid0 :=
  Pipeline.Window.ofSpec (Memref.whole main_v0) S24x6890.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S128x6890.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v1) S24x128.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x3x6890 : Shape := ⟨3, ![8, 3, 6890]⟩
abbrev S1723x6890 : Shape := ⟨2, ![1723, 6890]⟩
abbrev S8x6890x3 : Shape := ⟨3, ![8, 6890, 3]⟩
abbrev S1x6890x3 : Shape := ⟨3, ![1, 6890, 3]⟩
abbrev S6890x3 : Shape := ⟨2, ![6890, 3]⟩
abbrev S1723x3 : Shape := ⟨2, ![1723, 3]⟩
abbrev S1x1723x3 : Shape := ⟨3, ![1, 1723, 3]⟩
abbrev S8x1723x3 : Shape := ⟨3, ![8, 1723, 3]⟩
abbrev S8x3x1723 : Shape := ⟨3, ![8, 3, 1723]⟩

abbrev nBuf : Space → Nat
  | .hbm => 37
  | .vmem => 0
  | .smem => 0
  | _ => 0

abbrev bufTy : (tb : Table) → Fin (tcTables nBuf tb) → BufTy
  | .hbm, ⟨0, _⟩ => ⟨S8x3x6890, .f32⟩
  | .hbm, ⟨1, _⟩ => ⟨S1723x6890, .f32⟩
  | .hbm, ⟨2, _⟩ => ⟨S8x6890x3, .f32⟩
  | .hbm, ⟨3, _⟩ => ⟨S1x6890x3, .f32⟩
  | .hbm, ⟨4, _⟩ => ⟨S6890x3, .f32⟩
  | .hbm, ⟨5, _⟩ => ⟨S1723x3, .f32⟩
  | .hbm, ⟨6, _⟩ => ⟨S1x6890x3, .f32⟩
  | .hbm, ⟨7, _⟩ => ⟨S6890x3, .f32⟩
  | .hbm, ⟨8, _⟩ => ⟨S1723x3, .f32⟩
  | .hbm, ⟨9, _⟩ => ⟨S1x6890x3, .f32⟩
  | .hbm, ⟨10, _⟩ => ⟨S6890x3, .f32⟩
  | .hbm, ⟨11, _⟩ => ⟨S1723x3, .f32⟩
  | .hbm, ⟨12, _⟩ => ⟨S1x6890x3, .f32⟩
  | .hbm, ⟨13, _⟩ => ⟨S6890x3, .f32⟩
  | .hbm, ⟨14, _⟩ => ⟨S1723x3, .f32⟩
  | .hbm, ⟨15, _⟩ => ⟨S1x6890x3, .f32⟩
  | .hbm, ⟨16, _⟩ => ⟨S6890x3, .f32⟩
  | .hbm, ⟨17, _⟩ => ⟨S1723x3, .f32⟩
  | .hbm, ⟨18, _⟩ => ⟨S1x6890x3, .f32⟩
  | .hbm, ⟨19, _⟩ => ⟨S6890x3, .f32⟩
  | .hbm, ⟨20, _⟩ => ⟨S1723x3, .f32⟩
  | .hbm, ⟨21, _⟩ => ⟨S1x6890x3, .f32⟩
  | .hbm, ⟨22, _⟩ => ⟨S6890x3, .f32⟩
  | .hbm, ⟨23, _⟩ => ⟨S1723x3, .f32⟩
  | .hbm, ⟨24, _⟩ => ⟨S1x6890x3, .f32⟩
  | .hbm, ⟨25, _⟩ => ⟨S6890x3, .f32⟩
  | .hbm, ⟨26, _⟩ => ⟨S1723x3, .f32⟩
  | .hbm, ⟨27, _⟩ => ⟨S1x1723x3, .f32⟩
  | .hbm, ⟨28, _⟩ => ⟨S1x1723x3, .f32⟩
  | .hbm, ⟨29, _⟩ => ⟨S1x1723x3, .f32⟩
  | .hbm, ⟨30, _⟩ => ⟨S1x1723x3, .f32⟩
  | .hbm, ⟨31, _⟩ => ⟨S1x1723x3, .f32⟩
  | .hbm, ⟨32, _⟩ => ⟨S1x1723x3, .f32⟩
  | .hbm, ⟨33, _⟩ => ⟨S1x1723x3, .f32⟩
  | .hbm, ⟨34, _⟩ => ⟨S1x1723x3, .f32⟩
  | .hbm, ⟨35, _⟩ => ⟨S8x1723x3, .f32⟩
  | .hbm, ⟨36, _⟩ => ⟨S8x3x1723, .f32⟩
  | _, _ => ⟨S8x3x6890, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩

abbrev nD : Nat := 1
abbrev τ : Topo := Topo.v7x

variable {F : FTy → Type} [FloatOps F]

class Facts₀ : Prop where
  transposes_S8x3x6890_S8x6890x3_0_2_1 : S8x3x6890.Transposes [0, 2, 1] S8x6890x3
  slices_S8x6890x3_S1x6890x3_0_0_0 : S8x6890x3.Slices ![0, 0, 0] S1x6890x3
  shapeCasts_S1x6890x3_S6890x3 : S1x6890x3.ShapeCasts S6890x3
  slices_S8x6890x3_S1x6890x3_1_0_0 : S8x6890x3.Slices ![1, 0, 0] S1x6890x3
  slices_S8x6890x3_S1x6890x3_2_0_0 : S8x6890x3.Slices ![2, 0, 0] S1x6890x3
  slices_S8x6890x3_S1x6890x3_3_0_0 : S8x6890x3.Slices ![3, 0, 0] S1x6890x3
  slices_S8x6890x3_S1x6890x3_4_0_0 : S8x6890x3.Slices ![4, 0, 0] S1x6890x3
  slices_S8x6890x3_S1x6890x3_5_0_0 : S8x6890x3.Slices ![5, 0, 0] S1x6890x3
  slices_S8x6890x3_S1x6890x3_6_0_0 : S8x6890x3.Slices ![6, 0, 0] S1x6890x3
  slices_S8x6890x3_S1x6890x3_7_0_0 : S8x6890x3.Slices ![7, 0, 0] S1x6890x3
  bcast_S1723x3_S1x1723x3_1_2 : S1723x3.BroadcastsInDim S1x1723x3 (![1, 2] : Fin 2 → Fin S1x1723x3.rank)
  concatenates_S1x1723x3_S1x1723x3_S1x1723x3_S1x1723x3_S1x1723x3_S1x1723x3_S1x1723x3_S1x1723x3_S8x1723x3_d0 : Shape.Concatenates [S1x1723x3, S1x1723x3, S1x1723x3, S1x1723x3, S1x1723x3, S1x1723x3, S1x1723x3, S1x1723x3] S8x1723x3 0
  transposes_S8x1723x3_S8x3x1723_0_2_1 : S8x1723x3.Transposes [0, 2, 1] S8x3x1723
  dot_S1723x6890_S6890x3_S1723x3_1_0_0_1_n_n_wf : DotDims.WF S1723x6890 S6890x3 S1723x3 [1] [0] [0] [1] [] []

variable [Facts₀]

def dot_S1723x6890_S6890x3_S1723x3_1_0_0_1_n_n : DotDims S1723x6890 S6890x3 S1723x3 where
  lhsContracting := [1]
  rhsContracting := [0]
  lhsNonContracting := [0]
  rhsNonContracting := [1]
  lhsBatch := []
  rhsBatch := []
  wf := dot_S1723x6890_S6890x3_S1723x3_1_0_0_1_n_n_wf

class Facts : Prop extends Facts₀ where

variable [Facts]
-- ==== Proof.BitsFrame.lean ====
/-
  The frame of the word-level kernel program: under the precondition every weakly fair execution of @main
  terminates, nothing faults, and the two argument arrays end as they began. Nothing is said of the result.

  The program is a reshape of the signals to 24 rows of length 6890, one pipelined region over 14 grid points
  (at point t the body multiplies the 24 x 6890 signal block with a 128 x 6890 block of matrix rows into a
  zero accumulator and overwrites the 24 x 128 result block), and a reshape of the 24 x 1723 result. The last
  block of matrix rows overhangs the matrix (1723 = 13 * 128 + 59), so at the last point the staged block
  holds, past the matrix's end, words that no array determines, and a product over words is not a function of
  the arrays there. The frame needs none of this: the proof data below constrain NO staging contents (each
  window's relation holds of any two contents), the body is shown only to hand every buffer back at some
  contents, and the library's reading of such data says that an input array is never written and that every
  buffer bypassing the region, outside those the later host line writes, ends at its region-entry contents.
-/
import proofs.«153855_g43009802502566_cont_9to1c4_365_2_alg».proof.Defs
import proofs.«153855_g43009802502566_cont_9to1c4_365_2_alg».proof.Proof.Gen.Kernel.Frame
import proofs.«153855_g43009802502566_cont_9to1c4_365_2_alg».proof.Proof.Gen.Kernel.Skeleton
import proofs.«153855_g43009802502566_cont_9to1c4_365_2_alg».proof.Proof.Gen.Pre_finite_inputs
import Idealize.ShloMosaic.Lib.Pipeline.FrameSuffix
import Idealize.ShloMosaic.Lib.Pipeline.Kit
import Idealize.ShloMosaic.Lib.Tactic

set_option maxRecDepth 16384

noncomputable section

namespace Cert.Kernel.BitsFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (UR sig nD τ) ℕ

/-! ## One grid point of the body -/

set_option maxHeartbeats 1000000 in
/-- The body's triple, as much of it as a frame wants: from the two input buffers at contents `x0`, `x1` and the
    result buffer at anything, the body runs to the inputs unchanged and the result buffer at some contents. The
    three loads read the whole buffers and change nothing; the one store overwrites the result buffer. -/
theorem sound_body (c : Dev nD) (E : Set ℕ) (i : grid0.Coords)
    (arg1 : Memref sig .tc .vmem S24x6890 .f32) (harg1 : arg1.IsWhole)
    (arg2 : Memref sig .tc .vmem S128x6890 .f32) (harg2 : arg2.IsWhole)
    (arg3 : Memref sig .tc .vmem S24x128 .f32) (harg3 : arg3.IsWhole)
    (x0 : Vec F S24x6890 .f32) (x1 : Vec F S128x6890 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ (∃ d, owns (c : Thread nD τ) arg3 fullShare d)) -∗ K ⟨⟩))
      ⊢ wp frame (wpE (defs₀ (F := F)) Variants.none c none) E (cc0__matmul_block i arg1 harg1 arg2 harg2 arg3 harg3) K := by
  simp only [cc0__matmul_block_eq_skeleton]; unfold cc0__matmul_block_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; iexists _; isplitr
  swap; · iexact H2
  ipureintro; rfl

variable (m : (ℓ : Loc nD τ sig) → Buf (Elt F) ℓ) (ρ : Dev nD → PrngReg)

/-! ## The proof data: nothing is said of any staging buffer -/

/-- The proof data on core `c`: the three windowed arrays at their contents when the region is entered; of what
    the body leaves in a staging buffer, given what it found there, nothing (the relation holds of any two
    contents); the region invariant the class's (the scratch, of which there is none, and the generator register);
    full shares; nothing owed. -/
def rdats (c : Dev nD) : RDat τ (Elt F) Unit ℕ (UR sig nD τ) ℕ cfg0 c where
  A w := Gen.V m c (Pipeline.arrRef spec0 w)
  after _ _ _ _ := True
  Φ _ := Pipeline.ΦA spec0 c
  q _ := fullShare
  owed _ := 0

/-- The body obligation of those data, at every point and whatever the three current staging buffers hold: the
    body runs and hands each back at some contents. -/
theorem body_obligation (c : Dev nD) : (rdats m c).BodyObligation (defs₀ (F := F)) Variants.none () Set.univ := fun t Y _ => by
  rw [Gen.bigSep_W0, Gen.bigSep_W0]
  rw [show (rdats m c).Φ t.succ = (rdats m c).Φ t.castSucc from rfl,
    show (rdats m c).owesAt () t.succ = (rdats m c).owesAt () t.castSucc from rfl]
  iintro ⟨HΦ, Ho, H0, H1, H2⟩
  iapply (sound_body (F := F) c Set.univ (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2)) (Y 0) (Y 1) _)
  isplitl [H0]; · iexact H0
  isplitl [H1]; · iexact H1
  isplitl [H2]; · iexists (Y 2); iexact H2
  iintro ⟨H0, H1, ⟨%X2, H2⟩⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  · iexists X2; isplitr; · ipureintro; trivial
    iexact H2

/-! ## The run -/

/-- The host line after the region writes the reshaped result and nothing else. -/
theorem sfx_writes : ∀ ops ∈ ([hostOps1] : List (List (HloOp τ sig (Elt F)))), ∀ op ∈ ops, ∀ b : Ref sig .tc,
    Proc.devRef .tc b ∈ op.writes → b ∈ ({main_v2} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb
  exact Finset.mem_singleton.mpr (Proc.devRef_injective (τ := τ) _ hb)

/-- At the compiled mesh, for any float values, from any memory whose semaphore counters are zero: every weakly
    fair execution of @main terminates, each windowed array ends at contents the write-backs allow (an input array:
    its entry contents), and every buffer that bypasses the region, the reshaped result apart, at its contents when
    the region was entered. -/
theorem run_main : θ_run defs (onTc (τ := τ) (main (F := F))) (s₀ m ρ)
    (Pipeline.RDat.FramePostR cfg0 (rdats m) {main_v2} (fun c b => Gen.V0 m c (Proc.devRef .tc b))) :=
  Pipeline.RDat.θ_run_frame_around_T cfgs 0 Gen.launch0 defs₀ Variants.none (rdats m) {main_v2} m ρ main
    (hbody := body_obligation m)
    (hshare := fun c => (rdats m c).share_full fun _ => rfl)
    (howed := fun _ _ => rfl)
    (V₀ := Gen.V0 m) (opss := [hostOps1])
    Gen.sfx_sub Gen.sfx_fresh Gen.sfx_keeps sfx_writes
    (hmain := Gen.hmain m Variants.none)
    (hA := fun _ _ => rfl) (hΦ := fun _ _ => rfl)

/-! ## The claim -/

/-- The frame at the word-level instance: the matrix is an input window's array, never written; the signals
    bypass the region and are not what the later host line writes; and no host line before the region writes
    either. -/
theorem frame : Cert.frame_Kernel := by
  intro m ρ _
  exact (θ_run defs _ _).mono
    (fun r h c =>
      ⟨((h c).2 main_arg0 (Finset.mem_sdiff.mpr ⟨Pipeline.mem_restRefs_of main_arg0 (by decide) (by decide),
            by rw [Finset.mem_singleton]; decide⟩)).trans (Gen.V_main_arg0 m c),
        (Pipeline.RDat.FramePostR.arr_in h c 1 rfl).trans (Gen.V_main_arg1 m c)⟩)
    (run_main (F := Bits) m ρ)

end Cert.Kernel.BitsFrame

end
-- ==== Proof.IdealBody.lean ====
/-
  One grid point of the kernel, on whatever staging buffers the pipeline hands it: the body reads the
  block of signals (24 rows of length 6890) and the block of matrix rows (128 rows of length 6890),
  and overwrites the whole result block (24 × 128) with their product into a zero accumulator,
  `k0_pay1`. Both inputs are left as they were. Stated for every float instance.
-/
import proofs.«153855_g43009802502566_cont_9to1c4_365_2_alg».proof.Proof.Gen.KernelIdeal.Frame
import proofs.«153855_g43009802502566_cont_9to1c4_365_2_alg».proof.Proof.Gen.KernelIdeal.Skeleton
import Idealize.ShloMosaic.Lib.Pipeline.Value
import Idealize.ShloMosaic.Lib.Pipeline.FrameSuffix
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The body's triple: from the two input buffers at contents `x0`, `x1` and the result buffer at anything,
    the body runs to the inputs unchanged and the result buffer at `k0_pay1 x0 x1`. The three accesses are
    through the whole buffers (offset zero, the buffer's own sizes), so each load reads the contents and the
    one unmasked store leaves its payload everywhere. -/
theorem sound_kernel (c : Dev nD) (E : Set ℕ) (i : grid0.Coords)
    (arg1 : Memref sig .tc .vmem S24x6890 .f32) (harg1 : arg1.IsWhole)
    (arg2 : Memref sig .tc .vmem S128x6890 .f32) (harg2 : arg2.IsWhole)
    (arg3 : Memref sig .tc .vmem S24x128 .f32) (harg3 : arg3.IsWhole)
    (x0 : Vec F S24x6890 .f32) (x1 : Vec F S128x6890 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k0_pay1 x0 x1)) -∗ K ⟨⟩))
      ⊢ wp frame (wpE (defs₀ (F := F)) Variants.none c none) E (cc0__matmul_block i arg1 harg1 arg2 harg2 arg3 harg3) K := by
  simp only [cc0__matmul_block_eq_skeleton]; unfold cc0__matmul_block_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have hz : (![0, 0] : Fin 2 → Nat) = fun _ => 0 := funext fun a => by fin_cases a <;> rfl
  rw [View.read_writes_eq_canon _ _ _ (View.cover_of_tiled _ S24x128.size (by rfl)), View.canon_unit_zero (S := S24x128) hz]
  simp only [View.readAt_eq_ld, View.ld_unit_zero (S := S24x6890) hz, View.ld_unit_zero (S := S128x6890) hz]

end Cert.KernelIdeal.Body

end
-- ==== Proof.IdealMat.lean ====
/-
  The body's one payload read at an index, on the extended reals. The kernel multiplies a block of
  signals `v0` (24 × 6890) by a block of matrix rows `v2` (128 × 6890), contracting the LAST axis of
  both, into a zero accumulator; so the entry (r, q) of the product is the inner product of row `r` of
  the signals with row `q` of the matrix block:  ∑ k, v0 (r, k) · v2 (q, k).
  In particular column `q` of the result reads row `q` of the matrix block and no other row.
-/
import proofs.«153855_g43009802502566_cont_9to1c4_365_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Mat

open Cert.KernelIdeal Cert.KernelIdeal.Gen
open Idealize.ShloMosaic Idealize.ShloMosaic.ValueIdx

/-- The signals' row coordinate is the result's row coordinate. -/
theorem lhs_row (i : S24x128.Idx) (q : dot_S24x6890_S128x6890_S24x128_1_1_0_0_n_n.contr.Idx) :
    (dot_S24x6890_S128x6890_S24x128_1_1_0_0_n_n.lhsIdx i q 0).val = (i 0).val := by
  unfold DotDims.lhsIdx
  rw [dif_neg (show ¬(0 : Fin S24x6890.rank) ∈ dot_S24x6890_S128x6890_S24x128_1_1_0_0_n_n.lhsBatch by decide), dif_pos (show (0 : Fin S24x6890.rank) ∈ dot_S24x6890_S128x6890_S24x128_1_1_0_0_n_n.lhsNonContracting by decide)]
  rfl
/-- The signals' column coordinate is the contraction index. -/
theorem lhs_col (i : S24x128.Idx) (q : dot_S24x6890_S128x6890_S24x128_1_1_0_0_n_n.contr.Idx) :
    (dot_S24x6890_S128x6890_S24x128_1_1_0_0_n_n.lhsIdx i q 1).val = (q ⟨0, by decide⟩).val :=
  dot_S24x6890_S128x6890_S24x128_1_1_0_0_n_n.lhsIdx_val_of_single rfl i q
/-- The matrix block's ROW coordinate is the result's COLUMN coordinate. -/
theorem rhs_row (i : S24x128.Idx) (q : dot_S24x6890_S128x6890_S24x128_1_1_0_0_n_n.contr.Idx) :
    (dot_S24x6890_S128x6890_S24x128_1_1_0_0_n_n.rhsIdx i q 0).val = (i 1).val := by
  unfold DotDims.rhsIdx
  rw [dif_neg (show ¬(0 : Fin S128x6890.rank) ∈ dot_S24x6890_S128x6890_S24x128_1_1_0_0_n_n.rhsBatch by decide), dif_pos (show (0 : Fin S128x6890.rank) ∈ dot_S24x6890_S128x6890_S24x128_1_1_0_0_n_n.rhsNonContracting by decide)]
  rfl
/-- The matrix block's column coordinate is the contraction index. -/
theorem rhs_col (i : S24x128.Idx) (q : dot_S24x6890_S128x6890_S24x128_1_1_0_0_n_n.contr.Idx) :
    (dot_S24x6890_S128x6890_S24x128_1_1_0_0_n_n.rhsIdx i q 1).val = (q ⟨0, by decide⟩).val :=
  dot_S24x6890_S128x6890_S24x128_1_1_0_0_n_n.rhsIdx_val_of_single rfl i q

/-- Entry (r, q) of the body's product: row `r` of the signals against row `q` of the matrix block. -/
theorem pay_apply (v0 : Vec Ideal S24x6890 .f32) (v2 : Vec Ideal S128x6890 .f32) (r : Fin 24) (q : Fin 128) :
    k0_pay1 (F := Ideal) v0 v2 (ix2 r q) = ∑ k : Fin 6890, v0 (ix2 r k) * v2 (ix2 q k) := by
  unfold k0_pay1
  rw [shapeCast_self]
  refine (Ideal.matmul_constant_zero_apply dot_S24x6890_S128x6890_S24x128_1_1_0_0_n_n none v0 v2 (ix2 r q)).trans ?_
  rw [← Equiv.sum_comp (contrEquiv1 dot_S24x6890_S128x6890_S24x128_1_1_0_0_n_n 6890 rfl rfl).symm]
  refine Finset.sum_congr rfl fun k _ => ?_
  have hk := contrEquiv1_symm_val dot_S24x6890_S128x6890_S24x128_1_1_0_0_n_n 6890 rfl rfl k
  have el : dot_S24x6890_S128x6890_S24x128_1_1_0_0_n_n.lhsIdx (ix2 r q) ((contrEquiv1 dot_S24x6890_S128x6890_S24x128_1_1_0_0_n_n 6890 rfl rfl).symm k) = ix2 r k := funext fun a => Fin.ext (by
    match a with
    | ⟨0, _⟩ => exact lhs_row _ _
    | ⟨1, _⟩ => exact (lhs_col _ _).trans hk)
  have er : dot_S24x6890_S128x6890_S24x128_1_1_0_0_n_n.rhsIdx (ix2 r q) ((contrEquiv1 dot_S24x6890_S128x6890_S24x128_1_1_0_0_n_n 6890 rfl rfl).symm k) = ix2 q k := funext fun a => Fin.ext (by
    match a with
    | ⟨0, _⟩ => exact rhs_row _ _
    | ⟨1, _⟩ => exact (rhs_col _ _).trans hk)
  rw [el, er]

/-- Two matrix blocks that agree on row `q` give the same column `q` of the product. -/
theorem pay_congr_row (v0 : Vec Ideal S24x6890 .f32) (v2 v2' : Vec Ideal S128x6890 .f32) (r : Fin 24) (q : Fin 128)
    (h : ∀ k : Fin 6890, v2 (ix2 q k) = v2' (ix2 q k)) :
    k0_pay1 (F := Ideal) v0 v2 (ix2 r q) = k0_pay1 (F := Ideal) v0 v2' (ix2 r q) := by
  rw [pay_apply, pay_apply]
  exact Finset.sum_congr rfl fun k _ => by rw [h k]

end Cert.KernelIdeal.Mat

end
-- ==== Proof.IdealRun.lean ====
/-
  The idealized kernel's run, with every buffer named. The grid has 14 points; point `t` multiplies the
  signals (the whole 24 × 6890 array, fetched once) by rows 128·t … 128·t + 127 of the matrix and writes
  columns 128·t … of the result. 1723 = 13 · 128 + 59, so at the last point only 59 rows of the matrix
  block lie inside the matrix: the other 69 rows of the staging buffer hold values nothing names, and only
  59 columns of the result block are written back. On the extended reals column `q` of the product reads
  row `q` of the matrix block alone (`Mat.pay_apply`), so the columns that are written back do not depend on
  the unnamed rows: what each point writes back is a function of the arrays.
-/
import proofs.«153855_g43009802502566_cont_9to1c4_365_2_alg».proof.Proof.Gen.KernelIdeal.Frame
import proofs.«153855_g43009802502566_cont_9to1c4_365_2_alg».proof.Proof.Gen.KernelIdeal.Skeleton
import proofs.«153855_g43009802502566_cont_9to1c4_365_2_alg».proof.Proof.IdealBody
import proofs.«153855_g43009802502566_cont_9to1c4_365_2_alg».proof.Proof.IdealMat
import Idealize.ShloMosaic.Lib.Pipeline.Value
import Idealize.ShloMosaic.Lib.Pipeline.FrameSuffix
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-! ## The blocks -/

/-- The signals as the region finds them: one block, the whole array, at every point. -/
abbrev xblk (c : Dev nD) (t : Fin cfg0.N) : Vec Ideal S24x6890 .f32 := iblk m c 0 t

/-- The matrix block at point `t`, filled out past the matrix's end with zeros (a filler nothing reads). -/
def mfill (c : Dev nD) (t : Fin cfg0.N) : Vec Ideal S128x6890 .f32 :=
  win0_1.fill (grid0.coords t) (fun _ => (FloatOps.ofBits (F := Ideal) .f32 0#32 : Elt Ideal .f32)) (iblk m c 1 t)

/-- At every point the matrix block's part inside the matrix has all 6890 columns, and the result block's
    columns inside the result are as many as the matrix block's rows inside the matrix. -/
theorem xs_facts : ∀ t : Fin cfg0.N, win0_2.xsize (grid0.coords t) 1 ≤ win0_1.xsize (grid0.coords t) 0
      ∧ win0_1.xsize (grid0.coords t) 1 = 6890 :=
  (by decide +kernel : ∀ t : Fin grid0.N, win0_2.xsize (grid0.coords t) 1 ≤ win0_1.xsize (grid0.coords t) 0
      ∧ win0_1.xsize (grid0.coords t) 1 = 6890)

/-- A row of the staging buffer that lies inside the matrix holds the matrix's row whatever filled the rest. -/
theorem fill_row_eq (t : Fin cfg0.N) (d d' : S128x6890.Idx → Elt Ideal .f32)
    (g : (win0_1.xblock (grid0.coords t)).Idx → Elt Ideal .f32)
    (q : Fin 128) (hq : q.val < win0_1.xsize (grid0.coords t) 0) (k : Fin 6890) :
    win0_1.fill (grid0.coords t) d g (ix2 q k) = win0_1.fill (grid0.coords t) d' g (ix2 q k) := by
  have hm : win0_1.moved (grid0.coords t) (ix2 q k) = true := (win0_1.moved_iff _ _).mpr fun a => by
    match a with
    | ⟨0, _⟩ => exact hq
    | ⟨1, _⟩ => show k.val < win0_1.xsize (grid0.coords t) 1; rw [(xs_facts t).2]; exact k.isLt
  unfold Window.fill; rw [dif_pos hm, dif_pos hm]

/-- So a column of the product whose matrix row lies inside the matrix does not depend on the filler. -/
theorem pay_fill_indep (x0 : Vec Ideal S24x6890 .f32) (t : Fin cfg0.N) (d d' : S128x6890.Idx → Elt Ideal .f32)
    (g : (win0_1.xblock (grid0.coords t)).Idx → Elt Ideal .f32) (y : S24x128.Idx)
    (hy : (y 1).val < win0_1.xsize (grid0.coords t) 0) :
    k0_pay1 (F := Ideal) x0 (win0_1.fill (grid0.coords t) d g) y = k0_pay1 (F := Ideal) x0 (win0_1.fill (grid0.coords t) d' g) y := by
  rw [eq_ix2 y]
  exact Mat.pay_congr_row x0 _ _ (y 0) (y 1) fun k => fill_row_eq t d d' g (y 1) hy k

/-- The columns of the product that are written back do not depend on the filler. -/
theorem cut_pay (x0 : Vec Ideal S24x6890 .f32) (t : Fin cfg0.N) (d d' : S128x6890.Idx → Elt Ideal .f32)
    (g : (win0_1.xblock (grid0.coords t)).Idx → Elt Ideal .f32) :
    win0_2.cut (grid0.coords t) (k0_pay1 (F := Ideal) x0 (win0_1.fill (grid0.coords t) d g))
      = win0_2.cut (grid0.coords t) (k0_pay1 (F := Ideal) x0 (win0_1.fill (grid0.coords t) d' g)) :=
  funext fun j => pay_fill_indep x0 t d d' g (win0_2.xinj (grid0.coords t) j)
    (Nat.lt_of_lt_of_le (j 1).isLt (xs_facts t).1)

/-! ## The proof data -/

/-- The arrays as the region finds them; after the body the signals' buffer at the signals, the matrix's at
    its block (zeros past the end), the result's at their product. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => mfill m c t
    | ⟨2, _⟩ => k0_pay1 (F := Ideal) (xblk m c t) (mfill m c t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = mfill m c t := by dsimp only [dats]
theorem after_2 (c : Dev nD) (t : Fin cfg0.N) :
    (dats m 0 c).after 2 t = k0_pay1 (F := Ideal) (xblk m c t) (mfill m c t) := by dsimp only [dats]

/-- The result's window is never fetched. -/
theorem fetch0_2 : ∀ t : Fin cfg0.N, (cfg0.win 2).fetch t = false :=
  (by decide +kernel : ∀ t : Fin grid0.N, win0_2.fetch t = false)

/-- What the body finds: the signals (fetched at the first point, kept since); -/
theorem before_0 (c : Dev nD) (t : Fin cfg0.N) (d) : (dats m 0 c).before 0 t d = iblk m c 0 t :=
  before0_0_of m (dats m 0 c) (A_eq m c 0) (after_0 m c) t d
/-- the matrix block just fetched, whatever was there past the matrix's end; -/
theorem before_1 (c : Dev nD) (t : Fin cfg0.N) (d) :
    (dats m 0 c).before 1 t d = win0_1.fill (grid0.coords t) d (iblk m c 1 t) := by
  unfold Dat.before; rw [if_pos (fetch0_1 t)]; rfl
/-- the result's buffer at anything. -/
theorem before_2 (c : Dev nD) (t : Fin cfg0.N) (d) : (dats m 0 c).before 2 t d = d := by
  unfold Dat.before
  rw [if_neg (by rw [fetch0_2 t]; exact Bool.false_ne_true)]
  by_cases h0 : t.val = 0
  · rw [if_pos h0]
  · rw [if_neg h0]; exact if_pos (flush0_2 _)

/-! ## The body obligation -/

/-- At every point: the body finds the signals, the matrix block with anything `d1` past the matrix's end, and
    the result's buffer at anything; it leaves the inputs as they were and the result's buffer at their product.
    The signals' window is exact. The matrix's window is stated on its rows inside the matrix, which are the
    block's whatever `d1` is. The result's window is stated on its columns inside the result, which are the
    product's against the zero-filled block whatever `d1` is (`cut_pay`). -/
theorem body_obligation (c : Dev nD) :
    BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1, before_2 m c t d2]
  iapply (Body.sound_kernel (F := Ideal) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2)) (xblk m c t)
    (win0_1.fill (grid0.coords t) d1 (iblk m c 1 t)) _)
  isplitl [H0]; · iexact H0
  isplitl [H1]; · iexact H1
  isplitl [H2]; · iexists d2; iexact H2
  iintro ⟨H0, H1, H2⟩
  isplitl [HΦ]; · iexact HΦ
  isplitl [Ho]; · iexact Ho
  isplitl [H0]
  · rw [after_0]; iexact H0
  isplitl [H1]
  · iexists d1
    rw [after_1, show win0_1.cut (grid0.coords t) (mfill m c t) = iblk m c 1 t from win0_1.cut_fill _ _ _]
    iexact H1
  · iexists (k0_pay1 (F := Ideal) (xblk m c t) (win0_1.fill (grid0.coords t) d1 (iblk m c 1 t)))
    have hc : (win0 2).cut (grid0.coords t) (k0_pay1 (F := Ideal) (xblk m c t) (win0_1.fill (grid0.coords t) d1 (iblk m c 1 t)))
        = (win0 2).cut (grid0.coords t) ((dats m 0 c).after 2 t) := by
      rw [after_2]; exact cut_pay (xblk m c t) t d1 _ (iblk m c 1 t)
    rw [(win0 2).fill_congr_cut (grid0.coords t) hc]; iexact H2

/-! ## The run -/

set_option backward.isDefEq.respectTransparency.types false in
/-- Every weakly fair execution of @main terminates; the three arrays of the region end at what the write-backs
    of the proof data leave, every other buffer at what the reshape after the region makes of that. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh)
    (hkeep := sfx_keeps) (hmain := hmain m Variants.none) (hA := A_eq m) (hΦ := fun _ _ => rfl)

end Cert.KernelIdeal.Run

end
-- ==== Proof.Spec.lean ====
/-
  The function both programs compute. For a batch of signals `x` of shape [8, 3, 6890] and a matrix `M`
  of shape [1723, 6890], the result at (b, c, o) is the inner product of the signal (b, c) with row `o`
  of `M`:  G x M (b, c, o) = ∑ k, x (b, c, k) · M (o, k),  a sum of 6890 products of extended reals.
-/
import Idealize.ShloMosaic.PureOps.Ideal
import Idealize.ShloMosaic.Lib.ValueIdx

noncomputable section

open scoped BigOperators

namespace Cert.Spec

open Idealize.ShloMosaic Idealize.ShloMosaic.ValueIdx

/-- The signals' shape. -/
abbrev SX : Shape := ⟨3, ![8, 3, 6890]⟩
/-- The matrix's shape. -/
abbrev SM : Shape := ⟨2, ![1723, 6890]⟩
/-- The result's shape. -/
abbrev SO : Shape := ⟨3, ![8, 3, 1723]⟩

/-- Signal (b, c) against row `o` of the matrix. -/
def G (x : SX.Idx → EReal) (M : SM.Idx → EReal) : SO.Idx → EReal :=
  fun i => ∑ k : Fin 6890, x (ix3 (n0 := 8) (n1 := 3) (n2 := 6890) (i 0) (i 1) k) * M (ix2 (n0 := 1723) (n1 := 6890) (i 2) k)

theorem G_apply (x : SX.Idx → EReal) (M : SM.Idx → EReal) (b : Fin 8) (c : Fin 3) (o : Fin 1723) :
    G x M (ix3 b c o) = ∑ k : Fin 6890, x (ix3 b c k) * M (ix2 o k) := rfl

end Cert.Spec

end
-- ==== Proof.IdealValue.lean ====
/-
  From blocks to the array, and from the array to the result. Point `t` writes back columns 128·t … of the
  24 × 1723 product array, each entry (r, o) the inner product of row `r` of the reshaped signals with row
  `o` of the matrix; the 14 blocks cover the 1723 columns (13 full blocks and one of 59), so after the run
  the product array is that function everywhere. The program reshapes the signals [8, 3, 6890] to 24 rows
  before the region (row 3·b + c is signal (b, c)) and the product [24, 1723] back to [8, 3, 1723] after it,
  so the result at (b, c, o) is ∑ k, x (b, c, k) · M (o, k): the specification.
-/
import proofs.«153855_g43009802502566_cont_9to1c4_365_2_alg».proof.Proof.Gen.KernelIdeal.Frame
import proofs.«153855_g43009802502566_cont_9to1c4_365_2_alg».proof.Proof.Gen.KernelIdeal.Skeleton
import proofs.«153855_g43009802502566_cont_9to1c4_365_2_alg».proof.Proof.IdealRun
import proofs.«153855_g43009802502566_cont_9to1c4_365_2_alg».proof.Proof.Spec
import Idealize.ShloMosaic.Lib.StableHlo.Run
import Idealize.ShloMosaic.Lib.Pipeline.Value
import Idealize.ShloMosaic.Lib.Pipeline.FrameSuffix
import Idealize.ShloMosaic.Lib.Tactic

set_option maxRecDepth 16384

noncomputable section

namespace Cert.KernelIdeal.Final

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx Cert.KernelIdeal.Run

variable (m : (ℓ : Loc nD τ sig) → Buf (Elt Ideal) ℓ) (ρ : Dev nD → PrngReg)

/-! ## The product array -/

/-- The reshaped signals and the matrix as the region finds them. -/
abbrev xarr (c : Dev nD) : S24x6890.Idx → EReal := V m c main_v0
abbrev marr (c : Dev nD) : S1723x6890.Idx → EReal := V m c main_arg1

/-- Row `r` of the reshaped signals against row `o` of the matrix, everywhere. -/
def Y (c : Dev nD) : S24x1723.Idx → EReal := fun i =>
  ∑ k : Fin 6890, xarr m c (ix2 (n0 := 24) (n1 := 6890) (i 0) k) * marr m c (ix2 (n0 := 1723) (n1 := 6890) (i 1) k)

/-- The index maps and cuts, decided over the grid: the signals' block is always the whole array, the matrix's
    block `t` starts at row 128·t, the result's block `t` at column 128·t with all 24 rows, and its columns
    inside the result are 128 unless the block reaches the result's end. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_2.xsize (grid0.coords t) (0 : Fin 2) = 24
    ∧ (1723 ≤ t.val * 128 + win0_2.xsize (grid0.coords t) (1 : Fin 2) ∨ win0_2.xsize (grid0.coords t) (1 : Fin 2) = 128) :=
  (by decide +kernel : ∀ t : Fin grid0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_2.xsize (grid0.coords t) (0 : Fin 2) = 24
    ∧ (1723 ≤ t.val * 128 + win0_2.xsize (grid0.coords t) (1 : Fin 2) ∨ win0_2.xsize (grid0.coords t) (1 : Fin 2) = 128))

/-- The signals' block read at (r, k) is the reshaped signals at (r, k). -/
theorem xblk_apply (c : Dev nD) (t : Fin cfg0.N) (r : Fin 24) (k : Fin 6890) :
    xblk m c t (ix2 r k) = xarr m c (ix2 r k) := by
  obtain ⟨e0, e1, -⟩ := idx_facts t
  show V m c main_v0 (((cfg0.win 0).blk t).view.emb (ix2 r k)) = V m c main_v0 (ix2 r k)
  congr 1
  funext a; apply Fin.ext
  match a with
  | ⟨0, _⟩ => show win0_0.index t (0 : Fin 2) * 24 + 1 * r.val = r.val; omega
  | ⟨1, _⟩ => show win0_0.index t (1 : Fin 2) * 6890 + 1 * k.val = k.val; omega

/-- A row of the matrix block inside the matrix, read at (q, k), is the matrix at (128·t + q, k). -/
theorem mfill_apply (c : Dev nD) (t : Fin cfg0.N) (q : Fin 128) (hq : q.val < win0_1.xsize (grid0.coords t) 0)
    (k : Fin 6890) (o : Fin 1723) (ho : o.val = t.val * 128 + q.val) :
    mfill m c t (ix2 q k) = marr m c (ix2 o k) := by
  obtain ⟨-, -, e2, e3, -⟩ := idx_facts t
  have hm : win0_1.moved (grid0.coords t) (ix2 q k) = true := (win0_1.moved_iff _ _).mpr fun a => by
    match a with
    | ⟨0, _⟩ => exact hq
    | ⟨1, _⟩ => show k.val < win0_1.xsize (grid0.coords t) 1; rw [(xs_facts t).2]; exact k.isLt
  unfold mfill Window.fill
  rw [dif_pos hm]
  show V m c main_arg1 (((cfg0.win 1).blk t).view.emb _) = V m c main_arg1 (ix2 o k)
  congr 1
  funext a; apply Fin.ext
  match a with
  | ⟨0, _⟩ => show win0_1.index t (0 : Fin 2) * 128 + 1 * q.val = o.val; omega
  | ⟨1, _⟩ => show win0_1.index t (1 : Fin 2) * 6890 + 1 * k.val = k.val; omega

/-- What point `t` writes back is block `t` of the product array. -/
theorem flushed_eq (c : Dev nD) (t : Fin cfg0.N) :
    (dats m 0 c).flushed 2 t = ((cfg0.win 2).blk t).view.read (Elt Ideal) (Y m c) := by
  show (cfg0.win 2).cut (grid0.coords t) ((dats m 0 c).after 2 t) = _
  rw [after_2]
  obtain ⟨-, -, -, -, e4, e5, -⟩ := idx_facts t
  funext j
  show k0_pay1 (F := Ideal) (xblk m c t) (mfill m c t) (win0_2.xinj (grid0.coords t) j)
    = Y m c (((cfg0.win 2).blk t).view.emb j)
  have hr : ((((cfg0.win 2).blk t).view.emb j) 0).val = (j 0).val := by
    show win0_2.index t (0 : Fin 2) * 24 + 1 * (j 0).val = (j 0).val; omega
  have ho : ((((cfg0.win 2).blk t).view.emb j) 1).val = t.val * 128 + (j 1).val := by
    show win0_2.index t (1 : Fin 2) * 128 + 1 * (j 1).val = t.val * 128 + (j 1).val; omega
  have hj0 : (j 0).val < 24 := Nat.lt_of_lt_of_le (j 0).isLt (win0_2.xsize_le (grid0.coords t) 0)
  have hj1 : (j 1).val < 128 := Nat.lt_of_lt_of_le (j 1).isLt (win0_2.xsize_le (grid0.coords t) 1)
  have hy : win0_2.xinj (grid0.coords t) j = ix2 (⟨(j 0).val, hj0⟩ : Fin 24) (⟨(j 1).val, hj1⟩ : Fin 128) := by
    funext a; apply Fin.ext
    match a with
    | ⟨0, _⟩ => rfl
    | ⟨1, _⟩ => rfl
  rw [hy, Mat.pay_apply]
  unfold Y
  refine Finset.sum_congr rfl fun k _ => ?_
  have hx : xblk m c t (ix2 (⟨(j 0).val, hj0⟩ : Fin 24) k)
      = xarr m c (ix2 (n0 := 24) (n1 := 6890) ((((cfg0.win 2).blk t).view.emb j) 0) k) := by
    rw [xblk_apply]
    exact congrArg (xarr m c) (funext fun a => Fin.ext (by
      match a with
      | ⟨0, _⟩ => exact hr.symm
      | ⟨1, _⟩ => rfl))
  have hM : mfill m c t (ix2 (⟨(j 1).val, hj1⟩ : Fin 128) k)
      = marr m c (ix2 (n0 := 1723) (n1 := 6890) ((((cfg0.win 2).blk t).view.emb j) 1) k) :=
    mfill_apply m c t ⟨(j 1).val, hj1⟩ (Nat.lt_of_lt_of_le (j 1).isLt (xs_facts t).1) k _ ho
  rw [hx, hM]

/-- An index of the product array is in point `t`'s block iff each coordinate is in the block's range inside the array. -/
theorem mem_blk (t : Fin cfg0.N) (i : S24x1723.Idx) :
    i ∈ ((cfg0.win 2).blk t).view.set ↔ ∀ a : Fin 2, win0_2.index t a * S24x128.size a ≤ (i a).val
      ∧ (i a).val < win0_2.index t a * S24x128.size a + win0_2.xsize (grid0.coords t) a := by
  show i ∈ ((View.whole main_v1).slice (win0_2.rect t)).set ↔ _
  rw [View.set_slice_whole, Rect.mem_set_unit]
  exact Iff.rfl

/-- Column `o` lies in block `o / 128`: the blocks cover the array. -/
theorem cover (i : S24x1723.Idx) :
    ∃ t : Fin cfg0.N, (cfg0.win 2).flush t = true ∧ i ∈ ((cfg0.win 2).blk t).view.set := by
  have hi0 : (i 0).val < 24 := (i 0).isLt
  have hi1 : (i 1).val < 1723 := (i 1).isLt
  have hN : (i 1).val / 128 < cfg0.N := by show (i 1).val / 128 < grid0.N; rw [N_0]; omega
  refine ⟨⟨(i 1).val / 128, hN⟩, flush0_2 _, ?_⟩
  rw [mem_blk]
  obtain ⟨-, -, -, -, e4, e5, e6, e7⟩ := idx_facts ⟨(i 1).val / 128, hN⟩
  have ht : (⟨(i 1).val / 128, hN⟩ : Fin cfg0.N).val = (i 1).val / 128 := rfl
  intro a
  match a with
  | ⟨0, _⟩ =>
    show win0_2.index ⟨(i 1).val / 128, hN⟩ (0 : Fin 2) * 24 ≤ (i 0).val
      ∧ (i 0).val < win0_2.index ⟨(i 1).val / 128, hN⟩ (0 : Fin 2) * 24 + win0_2.xsize (grid0.coords ⟨(i 1).val / 128, hN⟩) (0 : Fin 2)
    omega
  | ⟨1, _⟩ =>
    show win0_2.index ⟨(i 1).val / 128, hN⟩ (1 : Fin 2) * 128 ≤ (i 1).val
      ∧ (i 1).val < win0_2.index ⟨(i 1).val / 128, hN⟩ (1 : Fin 2) * 128 + win0_2.xsize (grid0.coords ⟨(i 1).val / 128, hN⟩) (1 : Fin 2)
    omega

/-- After the run the product array holds `Y`. -/
theorem final (c : Dev nD) : (dats m 0 c).arrAt 2 cfg0.N = Y m c :=
  (dats m 0 c).arrAt_eq_of_cover 2 (Y m c) (fun t _ => flushed_eq m c t) cover

/-! ## The host reshapes -/

/-- The region finds the signals reshaped to 24 rows, row-major. -/
theorem xarr_eq (c : Dev nD) :
    xarr m c = shapeCast S24x6890 (m ((c : Thread nD τ).loc main_arg0)) shapeCasts_S8x3x6890_S24x6890 := by
  show StableHlo.after hostOps0 (fun b => m (c, b)) (Proc.devRef .tc main_v0) = _
  after_results
  rfl

/-- The region finds the matrix as launched. -/
theorem marr_eq (c : Dev nD) : marr m c = m ((c : Thread nD τ).loc main_arg1) := V_main_arg1 m c

/-- After the region the result buffer holds the product array reshaped to [8, 3, 1723], row-major. -/
theorem tail_eq (c : Dev nD) : Pipeline.afterTail₀ cfgs (dats m) 0 (V0 m) [hostOps1] c main_v2
    = shapeCast S8x3x1723 (Y m c) shapeCasts_S24x1723_S8x3x1723 := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = Y m c := (Pipeline.withArrays_arr spec0 launch0.win.arr_inj c _ _ 2).trans (final m c)
  rw [hw]
  rfl

/-! ## The result is the specification -/

/-- The reshaped product at (b, s, o): row 3·b + s of the product array is signal (b, s), so the entry is the
    inner product of signal (b, s) with row `o` of the matrix. -/
theorem result_apply (c : Dev nD) (b : Fin 8) (s : Fin 3) (o : Fin 1723) :
    shapeCast S8x3x1723 (Y m c) shapeCasts_S24x1723_S8x3x1723 (ix3 b s o)
      = Cert.Spec.G (m ((c : Thread nD τ).loc main_arg0)) (m ((c : Thread nD τ).loc main_arg1)) (ix3 b s o) := by
  have hb : b.val < 8 := b.isLt
  have hs : s.val < 3 := s.isLt
  have hr : b.val * 3 + s.val < 24 := by omega
  rw [shapeCast_apply (Y m c) shapeCasts_S24x1723_S8x3x1723 (ix3 b s o) (ix2 (⟨b.val * 3 + s.val, hr⟩ : Fin 24) o)
    (by rewrite [Shape.rowMajor_val_two, Shape.rowMajor_val_three]
        show (b.val * 3 + s.val) * 1723 + o.val = (b.val * 3 + s.val) * 1723 + o.val; rfl),
    Cert.Spec.G_apply]
  unfold Y
  refine Finset.sum_congr rfl fun k _ => ?_
  show xarr m c (ix2 (⟨b.val * 3 + s.val, hr⟩ : Fin 24) k) * marr m c (ix2 o k) = _
  have hx : xarr m c (ix2 (⟨b.val * 3 + s.val, hr⟩ : Fin 24) k) = m ((c : Thread nD τ).loc main_arg0) (ix3 b s k) := by
    rw [xarr_eq]
    exact shapeCast_apply _ shapeCasts_S8x3x6890_S24x6890 _ (ix3 b s k)
      (by rewrite [Shape.rowMajor_val_three, Shape.rowMajor_val_two]
          show (b.val * 3 + s.val) * 6890 + k.val = (b.val * 3 + s.val) * 6890 + k.val; rfl)
  rw [hx, marr_eq]

/-- The reshaped product is the specification of the arguments. -/
theorem result_eq (c : Dev nD) : shapeCast S8x3x1723 (Y m c) shapeCasts_S24x1723_S8x3x1723
    = Cert.Spec.G (m ((c : Thread nD τ).loc main_arg0)) (m ((c : Thread nD τ).loc main_arg1)) := by
  funext i
  obtain ⟨b, s, o, rfl⟩ : ∃ (b : Fin 8) (s : Fin 3) (o : Fin 1723), i = ix3 b s o := ⟨i 0, i 1, i 2, eq_ix3 i⟩
  exact result_apply m c b s o

/-- Every weakly fair execution of the idealized kernel terminates with the result at the specification of the
    arguments, and the arguments as launched. -/
theorem run_value : θ_run defs (onTc (τ := τ) (main (F := Ideal))) ⟨m, fun _ => 0, ρ⟩ (fun r => ∀ c : Dev nD,
      r.2.mem ((c.tc : Thread nD τ).loc main_v2)
        = Cert.Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨((h c).2 main_v2 (Pipeline.mem_restRefs_of main_v2 (by decide) (by decide))).trans ((tail_eq m c).trans (result_eq m c)),
        ((h c).2 main_arg0 (Pipeline.mem_restRefs_of main_arg0 (by decide) (by decide))).trans (W_main_arg0 m (dats m) c),
        ((h c).1 1).trans (((dats m 0 c).arrAt_in 1 rfl _).trans ((A_eq m c 1).trans (V_main_arg1 m c)))⟩)
    (run_main m ρ)

end Cert.KernelIdeal.Final

end
-- ==== Proof.RefValue.lean ====
/-
  The reference program computes the specification.

  The reference moves the signal axis of x : [8, 3, 6890] last ([8, 6890, 3]), and for each batch b = 0 … 7 takes
  row b of it, drops the unit axis ([6890, 3]), multiplies the matrix M : [1723, 6890] by it ([1723, 3]: at (o, c) the
  sum over k of M (o, k) · x (b, c, k)), gives the product a leading unit axis ([1, 1723, 3]), joins the eight products
  along that axis ([8, 1723, 3]) and swaps the last two axes back ([8, 3, 1723]). So the result at (b, c, o) is
  ∑ k, M (o, k) · x (b, c, k), which is G x M (b, c, o) = ∑ k, x (b, c, k) · M (o, k) term by term, multiplication
  of extended reals being commutative.
-/
import proofs.«153855_g43009802502566_cont_9to1c4_365_2_alg».proof.Proof.Gen.ReferenceIdeal.Read
import proofs.«153855_g43009802502566_cont_9to1c4_365_2_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-- One batch's product, read at (0, o, c), from what is known of its four stages at an index: the slice sl is the
    transposed signals at sidx, which adds b on the batch axis and keeps the other two coordinates; the reshape rs
    drops the unit axis (row-major position k · 3 + c of [1, 6890, 3] is (0, k, c)); dt is the matrix product; bc puts
    the unit axis back. -/
theorem batch_apply (x : (⟨S8x3x6890, .f32⟩ : BufTy).Contents (Elt Ideal))
    (M : (⟨S1723x6890, .f32⟩ : BufTy).Contents (Elt Ideal)) (b : Fin 8)
    (sl : S1x6890x3.Idx → EReal) (sidx : S1x6890x3.Idx → S8x6890x3.Idx)
    (hsl : ∀ i, sl i = val_main_v0 (F := Ideal) x (sidx i))
    (hs0 : ∀ i, (sidx i 0).val = b.val + (i 0).val) (hs1 : ∀ i, (sidx i 1).val = (i 1).val)
    (hs2 : ∀ i, (sidx i 2).val = (i 2).val)
    (rs : S6890x3.Idx → EReal) (hrs : ∀ i, rs i = sl (idx_main_v2 i))
    (dt : S1723x3.Idx → EReal) (hdt : ∀ i, dt i = ∑ k : Fin 6890, M (lidx_main_v3 i k) * rs (ridx_main_v3 i k))
    (bc : S1x1723x3.Idx → EReal) (hbc : ∀ i, bc i = dt (idx_main_v25 i))
    (o : Fin 1723) (c : Fin 3) :
    bc (ix3 (0 : Fin 1) o c) = ∑ k : Fin 6890, M (ix2 o k) * x (ix3 b c k) := by
  rw [hbc, hdt]
  refine Finset.sum_congr rfl fun k _ => ?_
  rw [hrs, hsl, val_main_v0_apply]
  -- the matrix is read at (o, k)
  have eM : lidx_main_v3 (idx_main_v25 (ix3 (0 : Fin 1) o c)) k = ix2 o k :=
    funext fun a => match a with | ⟨0, _⟩ => rfl | ⟨1, _⟩ => rfl
  have hk : k.val < 6890 := k.isLt
  have hc : c.val < 3 := c.isLt
  -- the signals are read at (b, c, k): (k · 3 + c) % 3 = c and (k · 3 + c) / 3 = k
  have ex : idx_main_v0 (sidx (idx_main_v2 (ridx_main_v3 (idx_main_v25 (ix3 (0 : Fin 1) o c)) k))) = ix3 b c k :=
    funext fun a => Fin.ext (by
      match a with
      | ⟨0, _⟩ => exact (hs0 _).trans (Nat.add_zero _)
      | ⟨1, _⟩ => exact (hs2 _).trans (by show (k.val * 3 + c.val) % 3 = c.val; omega)
      | ⟨2, _⟩ => exact (hs1 _).trans (by show (k.val * 3 + c.val) / 3 % 6890 = k.val; omega))
  rw [eM, ex]

/-- Batch 0's product at (0, o, c). -/
theorem piece0 (x : (⟨S8x3x6890, .f32⟩ : BufTy).Contents (Elt Ideal))
    (M : (⟨S1723x6890, .f32⟩ : BufTy).Contents (Elt Ideal)) (o : Fin 1723) (c : Fin 3) :
    val_main_v25 (F := Ideal) x M (ix3 (0 : Fin 1) o c) = ∑ k : Fin 6890, M (ix2 o k) * x (ix3 (0 : Fin 8) c k) :=
  batch_apply x M 0 _ idx_main_v1 (val_main_v1_apply x) (fun _ => (Nat.zero_add _).symm) (fun _ => rfl) (fun _ => rfl)
    _ (val_main_v2_apply x) _ (val_main_v3_apply x M) _ (val_main_v25_apply x M) o c

/-- Batch 1's product at (0, o, c). -/
theorem piece1 (x : (⟨S8x3x6890, .f32⟩ : BufTy).Contents (Elt Ideal))
    (M : (⟨S1723x6890, .f32⟩ : BufTy).Contents (Elt Ideal)) (o : Fin 1723) (c : Fin 3) :
    val_main_v26 (F := Ideal) x M (ix3 (0 : Fin 1) o c) = ∑ k : Fin 6890, M (ix2 o k) * x (ix3 (1 : Fin 8) c k) :=
  batch_apply x M 1 _ idx_main_v4 (val_main_v4_apply x) (fun _ => rfl) (fun _ => rfl) (fun _ => rfl)
    _ (val_main_v5_apply x) _ (val_main_v6_apply x M) _ (val_main_v26_apply x M) o c

/-- Batch 2's product at (0, o, c). -/
theorem piece2 (x : (⟨S8x3x6890, .f32⟩ : BufTy).Contents (Elt Ideal))
    (M : (⟨S1723x6890, .f32⟩ : BufTy).Contents (Elt Ideal)) (o : Fin 1723) (c : Fin 3) :
    val_main_v27 (F := Ideal) x M (ix3 (0 : Fin 1) o c) = ∑ k : Fin 6890, M (ix2 o k) * x (ix3 (2 : Fin 8) c k) :=
  batch_apply x M 2 _ idx_main_v7 (val_main_v7_apply x) (fun _ => rfl) (fun _ => rfl) (fun _ => rfl)
    _ (val_main_v8_apply x) _ (val_main_v9_apply x M) _ (val_main_v27_apply x M) o c

/-- Batch 3's product at (0, o, c). -/
theorem piece3 (x : (⟨S8x3x6890, .f32⟩ : BufTy).Contents (Elt Ideal))
    (M : (⟨S1723x6890, .f32⟩ : BufTy).Contents (Elt Ideal)) (o : Fin 1723) (c : Fin 3) :
    val_main_v28 (F := Ideal) x M (ix3 (0 : Fin 1) o c) = ∑ k : Fin 6890, M (ix2 o k) * x (ix3 (3 : Fin 8) c k) :=
  batch_apply x M 3 _ idx_main_v10 (val_main_v10_apply x) (fun _ => rfl) (fun _ => rfl) (fun _ => rfl)
    _ (val_main_v11_apply x) _ (val_main_v12_apply x M) _ (val_main_v28_apply x M) o c

/-- Batch 4's product at (0, o, c). -/
theorem piece4 (x : (⟨S8x3x6890, .f32⟩ : BufTy).Contents (Elt Ideal))
    (M : (⟨S1723x6890, .f32⟩ : BufTy).Contents (Elt Ideal)) (o : Fin 1723) (c : Fin 3) :
    val_main_v29 (F := Ideal) x M (ix3 (0 : Fin 1) o c) = ∑ k : Fin 6890, M (ix2 o k) * x (ix3 (4 : Fin 8) c k) :=
  batch_apply x M 4 _ idx_main_v13 (val_main_v13_apply x) (fun _ => rfl) (fun _ => rfl) (fun _ => rfl)
    _ (val_main_v14_apply x) _ (val_main_v15_apply x M) _ (val_main_v29_apply x M) o c

/-- Batch 5's product at (0, o, c). -/
theorem piece5 (x : (⟨S8x3x6890, .f32⟩ : BufTy).Contents (Elt Ideal))
    (M : (⟨S1723x6890, .f32⟩ : BufTy).Contents (Elt Ideal)) (o : Fin 1723) (c : Fin 3) :
    val_main_v30 (F := Ideal) x M (ix3 (0 : Fin 1) o c) = ∑ k : Fin 6890, M (ix2 o k) * x (ix3 (5 : Fin 8) c k) :=
  batch_apply x M 5 _ idx_main_v16 (val_main_v16_apply x) (fun _ => rfl) (fun _ => rfl) (fun _ => rfl)
    _ (val_main_v17_apply x) _ (val_main_v18_apply x M) _ (val_main_v30_apply x M) o c

/-- Batch 6's product at (0, o, c). -/
theorem piece6 (x : (⟨S8x3x6890, .f32⟩ : BufTy).Contents (Elt Ideal))
    (M : (⟨S1723x6890, .f32⟩ : BufTy).Contents (Elt Ideal)) (o : Fin 1723) (c : Fin 3) :
    val_main_v31 (F := Ideal) x M (ix3 (0 : Fin 1) o c) = ∑ k : Fin 6890, M (ix2 o k) * x (ix3 (6 : Fin 8) c k) :=
  batch_apply x M 6 _ idx_main_v19 (val_main_v19_apply x) (fun _ => rfl) (fun _ => rfl) (fun _ => rfl)
    _ (val_main_v20_apply x) _ (val_main_v21_apply x M) _ (val_main_v31_apply x M) o c

/-- Batch 7's product at (0, o, c). -/
theorem piece7 (x : (⟨S8x3x6890, .f32⟩ : BufTy).Contents (Elt Ideal))
    (M : (⟨S1723x6890, .f32⟩ : BufTy).Contents (Elt Ideal)) (o : Fin 1723) (c : Fin 3) :
    val_main_v32 (F := Ideal) x M (ix3 (0 : Fin 1) o c) = ∑ k : Fin 6890, M (ix2 o k) * x (ix3 (7 : Fin 8) c k) :=
  batch_apply x M 7 _ idx_main_v22 (val_main_v22_apply x) (fun _ => rfl) (fun _ => rfl) (fun _ => rfl)
    _ (val_main_v23_apply x) _ (val_main_v24_apply x M) _ (val_main_v32_apply x M) o c

/-- The joined array at (b, o, c). Every piece has extent 1 along the joined axis, so the pieces before piece b cover
    b rows, the element comes from piece b at (0, o, c), and that is batch b's product. -/
theorem joined_apply (x : (⟨S8x3x6890, .f32⟩ : BufTy).Contents (Elt Ideal))
    (M : (⟨S1723x6890, .f32⟩ : BufTy).Contents (Elt Ideal)) (b : Fin 8) (o : Fin 1723) (c : Fin 3) :
    val_main_v33 (F := Ideal) x M (ix3 b o c) = ∑ k : Fin 6890, M (ix2 o k) * x (ix3 b c k) := by
  -- off the joined axis, (0, o, c) and (b', o, c) have the same coordinates
  have hi : ∀ (b' : Fin 8) (a : Fin S1x1723x3.rank), a.cast (rfl : S1x1723x3.rank = S8x1723x3.rank) ≠ (0 : Fin S8x1723x3.rank) →
      ((ix3 (0 : Fin 1) o c) a).val = ((ix3 b' o c) (a.cast (rfl : S1x1723x3.rank = S8x1723x3.rank))).val :=
    fun b' a ha => match a, ha with
      | ⟨0, _⟩, ha => absurd rfl ha
      | ⟨1, _⟩, _ => rfl
      | ⟨2, _⟩, _ => rfl
  unfold val_main_v33
  match b with
  | ⟨0, _⟩ =>
    exact (concatenate_apply_piece (0 : Fin S8x1723x3.rank) _ _ _ 0 (by show 0 < 8; decide) S1x1723x3 _ rfl rfl 0 rfl
      (ix3 (0 : Fin 1) o c) (hi _) rfl).trans (piece0 x M o c)
  | ⟨1, _⟩ =>
    exact (concatenate_apply_piece (0 : Fin S8x1723x3.rank) _ _ _ 1 (by show 1 < 8; decide) S1x1723x3 _ rfl rfl 1 rfl
      (ix3 (0 : Fin 1) o c) (hi _) rfl).trans (piece1 x M o c)
  | ⟨2, _⟩ =>
    exact (concatenate_apply_piece (0 : Fin S8x1723x3.rank) _ _ _ 2 (by show 2 < 8; decide) S1x1723x3 _ rfl rfl 2 rfl
      (ix3 (0 : Fin 1) o c) (hi _) rfl).trans (piece2 x M o c)
  | ⟨3, _⟩ =>
    exact (concatenate_apply_piece (0 : Fin S8x1723x3.rank) _ _ _ 3 (by show 3 < 8; decide) S1x1723x3 _ rfl rfl 3 rfl
      (ix3 (0 : Fin 1) o c) (hi _) rfl).trans (piece3 x M o c)
  | ⟨4, _⟩ =>
    exact (concatenate_apply_piece (0 : Fin S8x1723x3.rank) _ _ _ 4 (by show 4 < 8; decide) S1x1723x3 _ rfl rfl 4 rfl
      (ix3 (0 : Fin 1) o c) (hi _) rfl).trans (piece4 x M o c)
  | ⟨5, _⟩ =>
    exact (concatenate_apply_piece (0 : Fin S8x1723x3.rank) _ _ _ 5 (by show 5 < 8; decide) S1x1723x3 _ rfl rfl 5 rfl
      (ix3 (0 : Fin 1) o c) (hi _) rfl).trans (piece5 x M o c)
  | ⟨6, _⟩ =>
    exact (concatenate_apply_piece (0 : Fin S8x1723x3.rank) _ _ _ 6 (by show 6 < 8; decide) S1x1723x3 _ rfl rfl 6 rfl
      (ix3 (0 : Fin 1) o c) (hi _) rfl).trans (piece6 x M o c)
  | ⟨7, _⟩ =>
    exact (concatenate_apply_piece (0 : Fin S8x1723x3.rank) _ _ _ 7 (by show 7 < 8; decide) S1x1723x3 _ rfl rfl 7 rfl
      (ix3 (0 : Fin 1) o c) (hi _) rfl).trans (piece7 x M o c)

/-- **The reference computes G**: at (b, c, o) the last stage reads the joined array at (b, o, c), which is
    ∑ k, M (o, k) · x (b, c, k); commuting each product gives G's sum. -/
theorem result_eq (x : (⟨S8x3x6890, .f32⟩ : BufTy).Contents (Elt Ideal))
    (M : (⟨S1723x6890, .f32⟩ : BufTy).Contents (Elt Ideal)) :
    Cert.ReferenceIdeal.Read.val_main_v34 (F := Ideal) x M = Cert.Spec.G x M := by
  funext i
  obtain ⟨b, c, o, rfl⟩ : ∃ (b : Fin 8) (c : Fin 3) (o : Fin 1723), i = ix3 b c o := ⟨i 0, i 1, i 2, eq_ix3 i⟩
  have e34 : idx_main_v34 (ix3 b c o) = ix3 b o c :=
    funext fun a => match a with | ⟨0, _⟩ => rfl | ⟨1, _⟩ => rfl | ⟨2, _⟩ => rfl
  rw [val_main_v34_apply, e34, joined_apply, Cert.Spec.G_apply]
  exact Finset.sum_congr rfl fun k _ => mul_comm _ _

end Cert.ReferenceIdeal.RefValue

end
-- ==== Proof.lean ====
/-
  A batched product with a matrix stored dense:  out (b, c, o) = ∑ k, x (b, c, k) · M (o, k)  for signals
  x : [8, 3, 6890] and M : [1723, 6890]  (`Cert.Spec.G`).

  The kernel reshapes the signals to 24 rows and runs one pipelined region over 14 blocks of 128 matrix rows:
  each grid point multiplies the 24 × 6890 signals by a 128 × 6890 block of matrix rows, contracting the long
  axis, and writes a 24 × 128 block of columns of the product; the product is reshaped back to [8, 3, 1723].
  1723 = 13 · 128 + 59: the last block of matrix rows overhangs the matrix by 69 rows, which hold values that
  nothing determines, and the last block of result columns overhangs the result by 69 columns, which are not
  written back. On the extended reals a column of the product reads one row of the matrix block, so the columns
  that are written back are a function of the arrays, every column of the result is written by the block
  holding it, and the result is `G` (IdealMat, IdealRun, IdealValue). The reference multiplies the matrix by
  each of the eight batches' transposed signals and stacks the products: the same sums with the factors in the
  other order (RefValue). Multiplication of extended reals is commutative, so the two agree, with no use of
  the inputs' finiteness.

  The word-level kernel's frame claims nothing of the result: there a product is not a function of a block whose
  tail nothing determines, and the frame is proved from proof data that constrain no staging buffer (BitsFrame).
  The idealization rewrote no operation, so `preserves` has nothing to state.
-/
import proofs.«153855_g43009802502566_cont_9to1c4_365_2_alg».proof.Defs
import proofs.«153855_g43009802502566_cont_9to1c4_365_2_alg».proof.Proof.Gen.Kernel
import proofs.«153855_g43009802502566_cont_9to1c4_365_2_alg».proof.Proof.Gen.KernelIdeal
import proofs.«153855_g43009802502566_cont_9to1c4_365_2_alg».proof.Proof.Gen.ReferenceIdeal
import proofs.«153855_g43009802502566_cont_9to1c4_365_2_alg».proof.Proof.Gen.Pre_finite_inputs
import proofs.«153855_g43009802502566_cont_9to1c4_365_2_alg».proof.Proof.Gen.ReferenceIdeal.Run
import proofs.«153855_g43009802502566_cont_9to1c4_365_2_alg».proof.Proof.Gen.ReferenceIdeal.Read
import proofs.«153855_g43009802502566_cont_9to1c4_365_2_alg».proof.Proof.BitsFrame
import proofs.«153855_g43009802502566_cont_9to1c4_365_2_alg».proof.Proof.IdealValue
import proofs.«153855_g43009802502566_cont_9to1c4_365_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := Cert.Kernel.BitsFrame.frame

/-- The idealized kernel runs and leaves its arguments as launched: its value run with the result dropped. -/
theorem frame_kernelIdeal : Cert.frame_KernelIdeal := fun m ρ _ =>
  (θ_run Cert.KernelIdeal.defs _ _).mono (fun _ h c => (h c).2) (Cert.KernelIdeal.Final.run_value m ρ)

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the signals and the matrix, both programs end with the result at `G` of them. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Final.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
